-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part1 {F : FTy → Type} [FloatOps F] (main_arg1 : IVec S2x800000 32) (main_v13 : IVec S_ 1) (main_v15 : IVec S800000 32) (main_v16 : IVec S800000 32) : IVec S_ 1 :=
  let main_v17 : IVec S800000 1 := cmpi .sge main_v15 main_v16
  let main_v18 : IVec S1x800000 32 := (extractStridedSlice S1x800000 ![0, 0] · slices_S2x800000_S1x800000_0_0) main_arg1
  let main_v19 : IVec S800000 32 := shapeCast S800000 main_v18 shapeCasts_S1x800000_S800000
  let main_c_5 : IVec S_ 32 := constantI S_ 32 50000#32
  let main_v20 : IVec S800000 32 := broadcastInDim S800000 ![] bcast_S_S800000 main_c_5
  let main_v21 : IVec S800000 1 := cmpi .slt main_v19 main_v20
  let main_v22 : IVec S800000 1 := andi main_v17 main_v21
  let main_c_6 : IVec S_ 1 := constantI S_ 1 1#1
  let main_v23 : IVec S_ 1 := (fun x v => Host.reduce IntOp.andi x v reducesTo_S800000_S_d0 h_S_) main_v22 main_c_6
  let main_v24 : IVec S_ 1 := andi main_v13 main_v23
  main_v24

def fn {F : FTy → Type} [FloatOps F] (main_arg0 : FVec F S50000x64 .f32) (main_arg1 : IVec S2x800000 32) (main_arg2 : FVec F S64x64 .f32) (main_arg3 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : IVec S1x800000 32 := (extractStridedSlice S1x800000 ![0, 0] · slices_S2x800000_S1x800000_0_0) main_arg1
  let main_v15 : IVec S800000 32 := shapeCast S800000 main_v14 shapeCasts_S1x800000_S800000
  let main_c_4 : IVec S_ 32 := constantI S_ 32 4294917296#32
  let main_v16 : IVec S800000 32 := broadcastInDim S800000 ![] bcast_S_S800000 main_c_4
  fn_part1 (F := F) main_arg1 main_v13 main_v15 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S1x64 : Shape := ⟨2, ![1, 64]⟩
abbrev S2000x64 : Shape := ⟨2, ![2000, 64]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩

abbrev nBuf : Space → Nat
  | .hbm => 38
  | .vmem => 6
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S64x64, .bf16⟩
  | .hbm, ⟨9, _⟩ => ⟨S1x64, .f32⟩
  | .hbm, ⟨10, _⟩ => ⟨S50000x64, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S1, .i32⟩
  | .hbm, ⟨20, _⟩ => ⟨S_, .i32⟩
  | .hbm, ⟨21, _⟩ => ⟨S800000x1, .i32⟩
  | .hbm, ⟨22, _⟩ => ⟨S800000x1, .i1⟩
  | .hbm, ⟨23, _⟩ => ⟨S1x1, .i32⟩
  | .hbm, ⟨24, _⟩ => ⟨S800000x1, .i32⟩
  | .hbm, ⟨25, _⟩ => ⟨S800000x1, .i1⟩
  | .hbm, ⟨26, _⟩ => ⟨S800000x1, .i1⟩
  | .hbm, ⟨27, _⟩ => ⟨S_, .i1⟩
  | .hbm, ⟨28, _⟩ => ⟨S800000, .i1⟩
  | .hbm, ⟨29, _⟩ => ⟨S800000x64, .f32⟩
  | .hbm, ⟨30, _⟩ => ⟨S800000x64, .i1⟩
  | .hbm, ⟨31, _⟩ => ⟨S_, .f32⟩
  | .hbm, ⟨32, _⟩ => ⟨S800000x64, .f32⟩
  | .hbm, ⟨33, _⟩ => ⟨S800000x64, .f32⟩
  | .hbm, ⟨34, _⟩ => ⟨S_, .f32⟩
  | .hbm, ⟨35, _⟩ => ⟨S50000x64, .f32⟩
  | .hbm, ⟨36, _⟩ => ⟨S800000x1, .i32⟩
  | .hbm, ⟨37, _⟩ => ⟨S50000x64, .f32⟩
  | .local _ .vmem, ⟨0, _⟩ => ⟨S2000x64, .f32⟩
  | .local _ .vmem, ⟨1, _⟩ => ⟨S2000x64, .f32⟩
  | .local _ .vmem, ⟨2, _⟩ => ⟨S64x64, .bf16⟩
  | .local _ .vmem, ⟨3, _⟩ => ⟨S1x64, .f32⟩
  | .local _ .vmem, ⟨4, _⟩ => ⟨S2000x64, .f32⟩
  | .local _ .vmem, ⟨5, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v7 : Ref sig .tc := ⟨.hbm, 33, rfl⟩
abbrev main_cst : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  dot_S2000x64_S64x64_S2000x64_1_0_0_1_n_n_wf : DotDims.WF S2000x64 S64x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .bf16 = 32 ∨ (Rect.block (s := S64x64) S64x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .f32 = 32 ∨ (Rect.block (s := S50000x64) S2000x64.size (cc0_transform_3 i) (hinb0_3 i)).WholeWords (EltTy.packing .f32)

variable [Facts₀]

def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩

abbrev nBuf : Space → Nat
  | .hbm => 28
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x64, .f32⟩
  | .hbm, ⟨17, _⟩ => ⟨S800000x64, .f32⟩
  | .hbm, ⟨18, _⟩ => ⟨S1x64, .f32⟩
  | .hbm, ⟨19, _⟩ => ⟨S800000x64, .f32⟩
  | .hbm, ⟨20, _⟩ => ⟨S800000x64, .f32⟩
  | .hbm, ⟨21, _⟩ => ⟨S_, .f32⟩
  | .hbm, ⟨22, _⟩ => ⟨S800000x64, .f32⟩
  | .hbm, ⟨23, _⟩ => ⟨S800000x64, .f32⟩
  | .hbm, ⟨24, _⟩ => ⟨S_, .f32⟩
  | .hbm, ⟨25, _⟩ => ⟨S50000x64, .f32⟩
  | .hbm, ⟨26, _⟩ => ⟨S800000x1, .i32⟩
  | .hbm, ⟨27, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_cst : Ref sig .tc := ⟨.hbm, 21, rfl⟩
abbrev main_call0_v0 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  gather_S50000x64_S800000x1_S800000x64_1_0_n_n_0_1_164_wf : GatherDims.WF S50000x64 S800000x1 S800000x64 [1] [0] [] [0] [] 1 ![1, 64]
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.NodePayload.lean ====
/-
  The node kernel's body, read at an index.

  One grid point loads a block of 2000 rows of `x`, the whole 64 x 64 weight matrix and the bias row, and
  stores `max (x_blk · w + b) 0`. At the ideal instance the narrowing of `x` to bf16 is the identity, the
  product into a zero accumulator is the plain sum over the contracted axis, and the bias row is repeated
  down the rows. So the stored value at row `p`, column `q` of the block is
    max (∑ k, x_blk[p, k] * w[k, q] + b[0, q]) 0.
-/
import proofs.«414135_j44427141710055_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.NodePayload

open Cert.KernelIdeal Cert.KernelIdeal.Gen Idealize.ShloMosaic Idealize.ShloMosaic.ValueIdx

/-! ## The product's index maps, axis by axis -/

theorem lhs_axis0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl
theorem lhs_axis1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhs_axis0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhs_axis1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-- The block product into a zero accumulator, at `(p, q)`: the sum over the 64 contracted columns. -/
theorem matmul_at (l : FVec Ideal S2000x64 .bf16) (r : FVec Ideal S64x64 .bf16) (p : Fin 2000) (q : Fin 64) :
    matmul dot_S2000x64_S64x64_S2000x64_1_0_0_1_n_n none l r (constant (F := Ideal) S2000x64 .f32 0x00000000#32) (ix2 p q)
      = ∑ k : Fin 64, l (ix2 p k) * r (ix2 k q) := by
  show FloatOps.matmul dot_S2000x64_S64x64_S2000x64_1_0_0_1_n_n none l r (constant (F := Ideal) S2000x64 .f32 0x00000000#32) (ix2 p q) = _
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q) ((contrEquiv1 dot_S2000x64_S64x64_S2000x64_1_0_0_1_n_n 64 rfl rfl).symm k) = ix2 p k :=
    funext fun a => Fin.ext (by
      match a with
      | ⟨0, _⟩ => exact lhs_axis0 _ _
      | ⟨1, _⟩ => exact (lhs_axis1 _ _).trans hk)
  have er : dot_S2000x64_S64x64_S2000x64_1_0_0_1_n_n.rhsIdx (ix2 p q) ((contrEquiv1 dot_S2000x64_S64x64_S2000x64_1_0_0_1_n_n 64 rfl rfl).symm k) = ix2 k q :=
    funext fun a => Fin.ext (by
      match a with
      | ⟨0, _⟩ => exact (rhs_axis0 _ _).trans hk
      | ⟨1, _⟩ => exact rhs_axis1 _ _)
  rw [el, er]

/-- The bias row repeated down the 2000 rows, at `(p, q)`. -/
theorem bias_at (b : FVec Ideal S1x64 .f32) (p : Fin 2000) (q : Fin 64) :
    broadcastTo S2000x64 b broadcasts_S1x64_S2000x64 (ix2 p q) = b (ix2 (0 : Fin 1) q) :=
  broadcastTo_apply b broadcasts_S1x64_S2000x64 (ix2 p q) (ix2 (0 : Fin 1) q) (fun a => by
    match a with
    | ⟨0, _⟩ => rfl
    | ⟨1, _⟩ => rfl)

/-- The stored value of one grid point at `(p, q)`, from the three loaded blocks. -/
theorem pay_at (x0 : Vec Ideal S2000x64 .f32) (x1 : Vec Ideal S64x64 .bf16) (x2 : Vec Ideal S1x64 .f32)
    (p : Fin 2000) (q : Fin 64) :
    k0_pay1 (F := Ideal) x0 x1 x2 (ix2 p q)
      = max ((∑ k : Fin 64, x0 (ix2 p k) * x1 (ix2 k q)) + x2 (ix2 (0 : Fin 1) q)) (Ideal.ofBits .f32 0x00000000#32) := by
  unfold k0_pay1
  rw [shapeCast_self, shapeCast_self]
  show max (matmul dot_S2000x64_S64x64_S2000x64_1_0_0_1_n_n none (truncf .bf16 x0 bitsLt_bf16_f32) x1 (constant (F := Ideal) S2000x64 .f32 0x00000000#32) (ix2 p q)
      + broadcastTo S2000x64 x2 broadcasts_S1x64_S2000x64 (ix2 p q)) (Ideal.ofBits .f32 0x00000000#32) = _
  rw [matmul_at, bias_at]
  rfl

end Cert.KernelIdeal.NodePayload

end
-- ==== Proof.NodeArray.lean ====
/-
  The node kernel's output array.

  The kernel runs on a grid of 25 points; point `t` reads rows `2000 t … 2000 t + 1999` of `x`, the whole
  weight matrix and the bias row, and writes the same rows of the output. Each written block is the
  restriction of ONE function of the whole arrays,
    nodeMlp x w b (n, f) = max (∑ k, x[n, k] * w[k, f] + b[0, f]) 0,
  and the 25 blocks tile the 50000 rows, so after the region the output array is `nodeMlp x w b`.
-/
import proofs.«414135_j44427141710055_3_alg».proof.Proof.Gen.KernelIdeal.Frame
import proofs.«414135_j44427141710055_3_alg».proof.Proof.NodePayload
import Idealize.ShloMosaic.Lib.Pipeline.Value
import Idealize.ShloMosaic.Lib.ValueIdx

set_option maxRecDepth 16384

noncomputable section

namespace Cert.KernelIdeal.NodeArray

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- `relu (x · w + b)`, row by row: the value of node `n`, feature `f`. -/
def nodeMlp (x : S50000x64.Idx → Elt Ideal .f32) (w : S64x64.Idx → Elt Ideal .bf16) (b : S1x64.Idx → Elt Ideal .f32) :
    S50000x64.Idx → Elt Ideal .f32 :=
  fun i => max ((∑ k : Fin 64, x (ix2 (i 0) k) * w (ix2 k (i 1))) + b (ix2 (0 : Fin 1) (i 1))) (Ideal.ofBits .f32 0x00000000#32)

theorem nodeMlp_at (x : S50000x64.Idx → Elt Ideal .f32) (w : S64x64.Idx → Elt Ideal .bf16) (b : S1x64.Idx → Elt Ideal .f32)
    (n : Fin 50000) (f : Fin 64) :
    nodeMlp x w b (ix2 n f)
      = max ((∑ k : Fin 64, x (ix2 n k) * w (ix2 k f)) + b (ix2 (0 : Fin 1) f)) (Ideal.ofBits .f32 0x00000000#32) := rfl

theorem hz : (![0, 0] : Fin 2 → Nat) = fun _ => 0 := funext fun a => by fin_cases a <;> rfl

/-- The printed index maps over the grid: `x` and the output move one block of rows per point, the weights
    and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s block is row `2000 t + p` of the array. -/
def rowAt (t : Fin cfg0.N) (p : Fin 2000) : Fin 50000 :=
  ⟨t.val * 2000 + p.val, by have h := t.isLt; have hN : cfg0.N = 25 := N_0; have hp := p.isLt; omega⟩

/-- The stored value, when the three loaded blocks are restrictions of whole arrays. -/
theorem pay_of_arrays (X : S50000x64.Idx → Elt Ideal .f32) (Wm : S64x64.Idx → Elt Ideal .bf16) (Bv : S1x64.Idx → Elt Ideal .f32)
    (x0 : Vec Ideal S2000x64 .f32) (x1 : Vec Ideal S64x64 .bf16) (x2 : Vec Ideal S1x64 .f32) (r : Fin 2000 → Fin 50000)
    (h0 : ∀ (p : Fin 2000) (k : Fin 64), x0 (ix2 p k) = X (ix2 (r p) k))
    (h1 : ∀ (k q : Fin 64), x1 (ix2 k q) = Wm (ix2 k q))
    (h2 : ∀ q : Fin 64, x2 (ix2 (0 : Fin 1) q) = Bv (ix2 (0 : Fin 1) q)) (p : Fin 2000) (q : Fin 64) :
    k0_pay1 (F := Ideal) x0 x1 x2 (ix2 p q) = nodeMlp X Wm Bv (ix2 (r p) q) := by
  rw [NodePayload.pay_at, nodeMlp_at, h2]
  congr 2
  exact Finset.sum_congr rfl fun k _ => by rw [h0, h1]

/-! ## The blocks, read off the arrays -/

theorem blk0_read (c : Dev nD) (t : Fin cfg0.N) (p : Fin 2000) (k : Fin 64) :
    iblk m c 0 t (ix2 p k) = V m c main_arg0 (ix2 (rowAt t p) k) := by
  obtain ⟨e00, e01, -⟩ := idx_facts t
  show V m c main_arg0 (((cfg0.win 0).blk t).view.emb (ix2 p k)) = V m c main_arg0 (ix2 (rowAt t p) k)
  have h : ((cfg0.win 0).blk t).view.emb (ix2 p k) = ix2 (rowAt t p) k := by
    funext a; apply Fin.ext
    match a with
    | ⟨0, _⟩ => show win0_0.index t (0 : Fin 2) * 2000 + 1 * p.val = t.val * 2000 + p.val; omega
    | ⟨1, _⟩ => show win0_0.index t (1 : Fin 2) * 64 + 1 * k.val = k.val; omega
  rw [h]

theorem blk1_read (c : Dev nD) (t : Fin cfg0.N) (k q : Fin 64) :
    iblk m c 1 t (ix2 k q) = V m c main_v4 (ix2 k q) := by
  obtain ⟨-, -, e10, e11, -⟩ := idx_facts t
  show V m c main_v4 (((cfg0.win 1).blk t).view.emb (ix2 k q)) = V m c main_v4 (ix2 k q)
  have h : ((cfg0.win 1).blk t).view.emb (ix2 k q) = ix2 k q := by
    funext a; apply Fin.ext
    match a with
    | ⟨0, _⟩ => show win0_1.index t (0 : Fin 2) * 64 + 1 * k.val = k.val; omega
    | ⟨1, _⟩ => show win0_1.index t (1 : Fin 2) * 64 + 1 * q.val = q.val; omega
  rw [h]

theorem blk2_read (c : Dev nD) (t : Fin cfg0.N) (q : Fin 64) :
    iblk m c 2 t (ix2 (0 : Fin 1) q) = V m c main_v5 (ix2 (0 : Fin 1) q) := by
  obtain ⟨-, -, -, -, e20, e21, -⟩ := idx_facts t
  show V m c main_v5 (((cfg0.win 2).blk t).view.emb (ix2 (0 : Fin 1) q)) = V m c main_v5 (ix2 (0 : Fin 1) q)
  have h : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 64 + 1 * q.val = q.val; omega
  rw [h]

theorem blk3_emb (t : Fin cfg0.N) (p : Fin 2000) (q : Fin 64) :
    ((cfg0.win 3).blk t).view.emb (ix2 p q) = ix2 (rowAt t p) q := by
  obtain ⟨-, -, -, -, -, -, e30, e31⟩ := idx_facts t
  funext a; apply Fin.ext
  match a with
  | ⟨0, _⟩ => show win0_3.index t (0 : Fin 2) * 2000 + 1 * p.val = t.val * 2000 + p.val; omega
  | ⟨1, _⟩ => show win0_3.index t (1 : Fin 2) * 64 + 1 * q.val = q.val; omega

/-! ## What a point writes back, and the array -/

/-- What point `t` writes back is block `t` of `nodeMlp` of the arrays as the region finds them. -/
theorem flushed_eq (c : Dev nD) (t : Fin cfg0.N) :
    (dats m 0 c).flushed 3 t
      = ((cfg0.win 3).blk t).view.read (Elt Ideal) (nodeMlp (V m c main_arg0) (V m c main_v4) (V m c main_v5)) := by
  show (cfg0.win 3).cut (grid0.coords t) ((dats m 0 c).after 3 t) = _
  rw [after0_3]
  unfold out0_3
  rw [View.canon_unit_zero hz]
  simp only [View.ld_unit_zero (S := S2000x64) hz, View.ld_unit_zero (S := S64x64) hz, View.ld_unit_zero (S := S1x64) hz]
  funext j
  obtain ⟨p, q, rfl⟩ : ∃ (p : Fin 2000) (q : Fin 64), j = ix2 p q := ⟨j 0, j 1, eq_ix2 j⟩
  refine (pay_of_arrays (V m c main_arg0) (V m c main_v4) (V m c main_v5) (iblk m c 0 t) (iblk m c 1 t) (iblk m c 2 t)
    (rowAt t) (blk0_read m c t) (blk1_read m c t) (blk2_read m c t) p q).trans ?_
  show nodeMlp (V m c main_arg0) (V m c main_v4) (V m c main_v5) (ix2 (rowAt t p) q)
    = nodeMlp (V m c main_arg0) (V m c main_v4) (V m c main_v5) (((cfg0.win 3).blk t).view.emb (ix2 p q))
  rw [blk3_emb]

/-- An index of the output array is in point `t`'s block iff each coordinate is in the block's range. -/
theorem mem_blk (t : Fin cfg0.N) (i : S50000x64.Idx) :
    i ∈ ((cfg0.win 3).blk t).view.set ↔ ∀ a : Fin 2, win0_3.index t a * S2000x64.size a ≤ (i a).val
      ∧ (i a).val < win0_3.index t a * S2000x64.size a + S2000x64.size a := by
  show i ∈ ((View.whole main_v6).slice (win0_3.rect t)).set ↔ _
  rw [View.set_slice_whole, Rect.mem_set_unit]
  exact Iff.rfl

/-- Every row is in the block of the point `row / 2000`. -/
theorem cover (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 25 := N_0
  let t : Fin cfg0.N := ⟨(i 0).val / 2000, by omega⟩
  obtain ⟨-, -, -, -, -, -, e30, e31⟩ := idx_facts t
  have ht : t.val = (i 0).val / 2000 := rfl
  refine ⟨t, flush0_3 t, ?_⟩
  rw [mem_blk]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 64 ≤ (i 1).val ∧ (i 1).val < win0_3.index t (1 : Fin 2) * 64 + 64
    omega

/-- After the region the output array is `nodeMlp` of the arrays as the region finds them. -/
theorem final (c : Dev nD) :
    (dats m 0 c).arrAt 3 cfg0.N = nodeMlp (V m c main_arg0) (V m c main_v4) (V m c main_v5) :=
  (dats m 0 c).arrAt_eq_of_cover 3 (nodeMlp (V m c main_arg0) (V m c main_v4) (V m c main_v5))
    (fun t _ => flushed_eq m c t) cover

end Cert.KernelIdeal.NodeArray

end
-- ==== Proof.EdgeTail.lean ====
/-
  The host operations around the node kernel.

  Before the region the program cuts the two rows of `edge_index` out as flat arrays (the source and the
  target node of every edge), narrows the weights to bf16 and lays the bias out as a row. After the region
  it takes row `src[e]` of the kernel's output `y` for every edge `e` — wrapping a negative row number once,
  and putting the NaN pattern where the wrapped number is still outside `[0, 49999]` — and adds the taken
  rows into a zero array at the rows `dst[e]`.
  `edgeSum y src dst` is that tail as one function; the program's result is `edgeSum` of the region's output
  array, which NodeArray.lean shows to be `nodeMlp` of the arrays the region finds.
  The tail is read in four stretches — the wrapped row numbers, the range test, the masked gather, the
  scatter — each from ANY contents of the buffers it reads, so that no step compares more than one
  stretch's term.
-/
import proofs.«414135_j44427141710055_3_alg».proof.Proof.Gen.KernelIdeal.Frame
import proofs.«414135_j44427141710055_3_alg».proof.Proof.NodeArray
import Idealize.ShloMosaic.Lib.StableHlo.Run
import Idealize.ShloMosaic.Lib.Pipeline.Value

set_option maxRecDepth 16384

noncomputable section

namespace Cert.KernelIdeal.EdgeTail

open Cert.KernelIdeal Cert.KernelIdeal.Gen Idealize.ShloMosaic Idealize.ShloMosaic.TcCoe Idealize.ShloMosaic.StableHlo
open Idealize.SL.Sem

variable (m : (ℓ : Loc nD τ sig) → Buf (Elt Ideal) ℓ)

/-! ## The tail as functions -/

/-- The row numbers the gather is given: `src`, a negative one wrapped once, as a column. -/
def wrapped (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Per edge, whether a column of row numbers is inside `[0, 49999]`. -/
def inRangeOf (wr : IVec S800000x1 32) : IVec S800000 1 :=
  Host.reduce IntOp.andi
    (andi (cmpi .sge wr (broadcastInDim S800000x1 ![] bcast_S_S800000x1 (constantI S_ 32 0#32)))
      (cmpi .sle wr (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The rows of `y` at the row numbers `wr`, the NaN pattern where `ok` is clear. -/
def takenOf (y : FVec Ideal S50000x64 .f32) (ok : IVec S800000 1) (wr : IVec S800000x1 32) : FVec Ideal S800000x64 .f32 :=
  select (broadcastInDim S800000x64 ![0] bcast_S800000_S800000x64_0 ok)
    (Host.gather gather_S50000x64_S800000x1_S800000x64_1_0_n_n_0_1_164 y wr)
    (broadcastInDim S800000x64 ![] bcast_S_S800000x64 (constant (F := Ideal) S_ .f32 0x7FC00000#32))

/-- Rows added into a zero array at the target rows. -/
def edgeSumOf (dst : IVec S800000 32) (upd : FVec Ideal S800000x64 .f32) : FVec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 dst) upd

/-- Per edge, whether the wrapped source row number is inside `[0, 49999]`. -/
def inRange (src : IVec S800000 32) : IVec S800000 1 := inRangeOf (wrapped src)

/-- The rows of `y` taken per edge, the NaN pattern where the row number is out of range. -/
def taken (y : FVec Ideal S50000x64 .f32) (src : IVec S800000 32) : FVec Ideal S800000x64 .f32 :=
  takenOf y (inRange src) (wrapped src)

/-- The taken rows added into a zero array at the target rows. -/
def edgeSum (y : FVec Ideal S50000x64 .f32) (src dst : IVec S800000 32) : FVec Ideal S50000x64 .f32 :=
  edgeSumOf dst (taken y src)

/-! ## The tail's four stretches -/

/-- A line run after another is the fold of the second from the first's result. -/
theorem after_append {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_append l₁ l₂]

/-- The wrapped row numbers (8 operations), the range test (10), the masked gather (5). -/
def opsA : List (HloOp τ sig (Elt Ideal)) := (hostOps1 : List (HloOp τ sig (Elt Ideal))).take 8
def opsB : List (HloOp τ sig (Elt Ideal)) := ((hostOps1 : List (HloOp τ sig (Elt Ideal))).drop 8).take 10
def opsC : List (HloOp τ sig (Elt Ideal)) := ((hostOps1 : List (HloOp τ sig (Elt Ideal))).drop 8).drop 10

theorem ops_split : (hostOps1 : List (HloOp τ sig (Elt Ideal))) = opsA ++ (opsB ++ opsC) := by
  unfold opsA opsB opsC
  rw [List.take_append_drop, List.take_append_drop]

set_option maxHeartbeats 1000000 in
theorem stageA (W : Valuation τ sig (Elt Ideal)) :
    StableHlo.after opsA W (Proc.devRef .tc main_call0_v5) = wrapped (W (Proc.devRef .tc main_v1)) := by
  unfold wrapped opsA
  simp only [hostOps1, List.take_succ_cons, List.take_zero, List.drop_succ_cons, List.drop_zero]
  after_results
  rfl

-- both sides reduce the SAME array by `and`: the equation is between the reduce's arguments, never its fold over 800000 rows
attribute [local irreducible] Host.reduce in
set_option maxHeartbeats 1000000 in
theorem stageB (W : Valuation τ sig (Elt Ideal)) :
    StableHlo.after opsB W (Proc.devRef .tc main_call0_v12) = inRangeOf (W (Proc.devRef .tc main_call0_v5)) := by
  unfold inRangeOf opsB
  simp only [hostOps1, List.take_succ_cons, List.take_zero, List.drop_succ_cons, List.drop_zero]
  after_results
  rfl

set_option maxHeartbeats 1000000 in
theorem stageC (W : Valuation τ sig (Elt Ideal)) :
    StableHlo.after opsC W (Proc.devRef .tc main_v7)
      = takenOf (W (Proc.devRef .tc main_v6)) (W (Proc.devRef .tc main_call0_v12)) (W (Proc.devRef .tc main_call0_v5)) := by
  unfold takenOf opsC
  simp only [hostOps1, List.take_succ_cons, List.take_zero, List.drop_succ_cons, List.drop_zero]
  after_results
  rfl

theorem stageD (W : Valuation τ sig (Elt Ideal)) :
    StableHlo.after (hostOps1_1 : List (HloOp τ sig (Elt Ideal))) W (Proc.devRef .tc main_v10)
      = edgeSumOf (W (Proc.devRef .tc main_v3)) (W (Proc.devRef .tc main_v7)) := by
  unfold edgeSumOf
  simp only [hostOps1_1]
  after_results

/-! What each stretch leaves alone, of the buffers a later stretch reads. -/

theorem keepA_y (W : Valuation τ sig (Elt Ideal)) :
    StableHlo.after opsA W (Proc.devRef .tc main_v6) = W (Proc.devRef .tc main_v6) := by
  unfold opsA
  simp only [hostOps1, List.take_succ_cons, List.take_zero, List.drop_succ_cons, List.drop_zero]
  after_results

theorem keepA_dst (W : Valuation τ sig (Elt Ideal)) :
    StableHlo.after opsA W (Proc.devRef .tc main_v3) = W (Proc.devRef .tc main_v3) := by
  unfold opsA
  simp only [hostOps1, List.take_succ_cons, List.take_zero, List.drop_succ_cons, List.drop_zero]
  after_results

theorem keepB_wr (W : Valuation τ sig (Elt Ideal)) :
    StableHlo.after opsB W (Proc.devRef .tc main_call0_v5) = W (Proc.devRef .tc main_call0_v5) := by
  unfold opsB
  simp only [hostOps1, List.take_succ_cons, List.take_zero, List.drop_succ_cons, List.drop_zero]
  after_results

theorem keepB_y (W : Valuation τ sig (Elt Ideal)) :
    StableHlo.after opsB W (Proc.devRef .tc main_v6) = W (Proc.devRef .tc main_v6) := by
  unfold opsB
  simp only [hostOps1, List.take_succ_cons, List.take_zero, List.drop_succ_cons, List.drop_zero]
  after_results

theorem keepB_dst (W : Valuation τ sig (Elt Ideal)) :
    StableHlo.after opsB W (Proc.devRef .tc main_v3) = W (Proc.devRef .tc main_v3) := by
  unfold opsB
  simp only [hostOps1, List.take_succ_cons, List.take_zero, List.drop_succ_cons, List.drop_zero]
  after_results

theorem keepC_dst (W : Valuation τ sig (Elt Ideal)) :
    StableHlo.after opsC W (Proc.devRef .tc main_v3) = W (Proc.devRef .tc main_v3) := by
  unfold opsC
  simp only [hostOps1, List.take_succ_cons, List.take_zero, List.drop_succ_cons, List.drop_zero]
  after_results

/-- The host lines after the region, from any contents: the result buffer ends at `edgeSum` of what the region's
    output buffer and the two index buffers held. -/
theorem after_tail (W : Valuation τ sig (Elt Ideal)) :
    StableHlo.after ((hostOps1 : List (HloOp τ sig (Elt Ideal))) ++ hostOps1_1) W (Proc.devRef .tc main_v10)
      = edgeSum (W (Proc.devRef .tc main_v6)) (W (Proc.devRef .tc main_v1)) (W (Proc.devRef .tc main_v3)) := by
  rw [ops_split, after_append, after_append, after_append, stageD, stageC, keepC_dst, stageB, keepB_wr, keepB_y, keepB_dst,
    stageA, keepA_y, keepA_dst]
  unfold edgeSum taken inRange
  rfl

/-! ## The host lines before the region -/

theorem V_src (c : Dev nD) : (V m c main_v1 : S800000.Idx → BitVec 32)
    = shapeCast S800000 (extractStridedSlice S1x800000 ![0, 0] (m ((c : Thread nD τ).loc main_arg1)) slices_S2x800000_S1x800000_0_0)
        shapeCasts_S1x800000_S800000 := by
  dsimp only [V, V0]
  simp only [hostOps0, List.flatten_cons, List.flatten_nil, List.append_nil, List.cons_append, List.nil_append]
  after_results
  rfl

theorem V_dst (c : Dev nD) : (V m c main_v3 : S800000.Idx → BitVec 32)
    = shapeCast S800000 (extractStridedSlice S1x800000 ![1, 0] (m ((c : Thread nD τ).loc main_arg1)) slices_S2x800000_S1x800000_1_0)
        shapeCasts_S1x800000_S800000 := by
  dsimp only [V, V0]
  simp only [hostOps0, List.flatten_cons, List.flatten_nil, List.append_nil, List.cons_append, List.nil_append]
  after_results
  rfl

/-- The weights the region finds are the argument's: narrowing to bf16 is the identity on extended reals. -/
theorem V_w (c : Dev nD) : V m c main_v4 = fun i => m ((c : Thread nD τ).loc main_arg2) i := by
  dsimp only [V, V0]
  simp only [hostOps0, List.flatten_cons, List.flatten_nil, List.append_nil, List.cons_append, List.nil_append]
  after_results
  rfl

theorem V_b (c : Dev nD) : (V m c main_v5 : S1x64.Idx → Elt Ideal .f32)
    = shapeCast S1x64 (m ((c : Thread nD τ).loc main_arg3)) shapeCasts_S64_S1x64 := by
  dsimp only [V, V0]
  simp only [hostOps0, List.flatten_cons, List.flatten_nil, List.append_nil, List.cons_append, List.nil_append]
  after_results
  rfl

/-! ## The program's result -/

/-- What the frame run leaves in the result buffer: `edgeSum` of the node values and the two index rows. -/
theorem result (c : Dev nD) :
    Pipeline.afterTail₀ cfgs (dats m) 0 (V0 m) [hostOps1, hostOps1_1] c main_v10
      = edgeSum (NodeArray.nodeMlp (V m c main_arg0) (V m c main_v4) (V m c main_v5)) (V m c main_v1) (V m c main_v3) := by
  unfold Pipeline.afterTail₀
  have hl : ([hostOps1, hostOps1_1] : List (List (HloOp τ sig (Elt Ideal)))).flatten = hostOps1 ++ hostOps1_1 := by
    simp only [List.flatten_cons, List.flatten_nil, List.append_nil]
  rw [hl, after_tail]
  have h6 : Pipeline.withArrays (cfgs 0).spec c (V0 m c) (fun w => (dats m 0 c).arrAt w (cfgs 0).N) (Proc.devRef .tc main_v6)
      = NodeArray.nodeMlp (V m c main_arg0) (V m c main_v4) (V m c main_v5) :=
    (Pipeline.withArrays_arr spec0 launch0.win.arr_inj c _ _ 3).trans (NodeArray.final m c)
  have h1 : Pipeline.withArrays (cfgs 0).spec c (V0 m c) (fun w => (dats m 0 c).arrAt w (cfgs 0).N) (Proc.devRef .tc main_v1)
      = V m c main_v1 :=
    Pipeline.withArrays_of_ne _ c (V0 m c) _ main_v1 (by exact (by decide : ∀ w, Pipeline.arrRef spec0 w ≠ main_v1))
  have h3 : Pipeline.withArrays (cfgs 0).spec c (V0 m c) (fun w => (dats m 0 c).arrAt w (cfgs 0).N) (Proc.devRef .tc main_v3)
      = V m c main_v3 :=
    Pipeline.withArrays_of_ne _ c (V0 m c) _ main_v3 (by exact (by decide : ∀ w, Pipeline.arrRef spec0 w ≠ main_v3))
  rw [h6, h1, h3]

end Cert.KernelIdeal.EdgeTail

end
-- ==== Proof.LibRowGather.lean ====
/-
  A row gather read at an index, and an all-ones mask folded by `and`.

  `x[idx]` for a matrix `x : [N, C]` and a column of row numbers `idx : [E, 1]` is StableHLO's gather with
  offset axis 1, collapsed axis 0, start index map [0], index vector axis 1 and slices of one whole row.
  Its element `(e, f)` is `x` at row `min (toNat (toInt idx[e, 0])) (N - 1)` and column `f`: the row number
  is read signed, clamped into the matrix, and does not depend on the column; the column passes through.
  So a function applied row by row commutes with the gather, whatever the row numbers are.

  A reduce by `and` from the constant 1 over words that are all 1 is 1 (the converse of reading an
  element out of a reduce that is 1).
-/
import Idealize.ShloMosaic.PureOps
import Idealize.ShloMosaic.PureOps.Reduce
import Idealize.ShloMosaic.Lib.ValueIdx
import Idealize.ShloMosaic.Lib.Affine

noncomputable section

namespace Idealize.ShloMosaic.RowGather

open Idealize.ShloMosaic Idealize.ShloMosaic.ValueIdx

variable {α : Type}

/-- The dimension numbers of a row gather: operand `[N, C]`, start indices `[E, 1]`, result `[E, C]`. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row the gather reads for result row `e`: the start index read signed and clamped into `[0, N - 1]`. -/
def rowOf {N E w : Nat} (hN : 0 < N) (idx : IVec ⟨2, ![E, 1]⟩ w) (e : Fin E) : Fin N :=
  ⟨min (idx (ix2 e (0 : Fin 1))).toInt.toNat (N - 1), by omega⟩

/-- The row gather at `(e, f)` is the operand at `(rowOf e, f)`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowDims N C E wf) x idx (ix2 e f) = x (ix2 (rowOf hN idx e) f) := by
  unfold Host.gather
  congr 1
  funext a
  refine Fin.ext ?_
  match a with
  | ⟨0, _⟩ =>
    show (rowDims N C E wf).start (ix2 e f) idx 0 + (rowDims N C E wf).batchCoord (ix2 e f) 0
      + (rowDims N C E wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e f) ⟨List.idxOf (0 : Fin 2) (rowDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N C E wf).start (ix2 e f) idx 1 + (rowDims N C E wf).batchCoord (ix2 e f) 1
      + (rowDims N C E wf).offCoord (ix2 e f) 1 = _
    have hs : (rowDims N C E wf).start (ix2 e f) idx 1 = 0 := by
      unfold GatherDims.start
      rw [dif_neg (fun h : (1 : Fin 2) ∈ (rowDims N C E wf).startIndexMap =>
        absurd (congrArg Fin.val (List.mem_singleton.mp h)) Nat.one_ne_zero)]
    rw [GatherDims.batchCoord_eq_zero _ _ _ List.not_mem_nil, hs]
    simp only [Nat.zero_add, Nat.add_zero]
    unfold GatherDims.offCoord
    rw [dif_pos ((GatherDims.mem_sKept _ _).mpr
      ⟨fun h : (1 : Fin 2) ∈ (rowDims N C E wf).collapsedSliceDims =>
        absurd (congrArg Fin.val (List.mem_singleton.mp h)) Nat.one_ne_zero, List.not_mem_nil⟩)]
    rfl

/-- A left fold by `and` from 1 over words that are all 1 is 1. -/
theorem foldl_andi_of_all_one {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    refine foldl_andi_of_all_one f l _ ?_ (fun n hn => hl n (List.mem_cons_of_mem _ hn))
    show IntOp.andi init (f a) = 1#1
    rw [h, hl a (List.mem_cons_self ..)]; rfl

/-- A `stablehlo.reduce` by `and` from 1 of an array of 1s is 1 at every result index. -/
theorem reduce_andi_of_all_one {s t u : Shape} {axes : List (Fin s.rank)} (x : s.Idx → BitVec 1)
    (init : u.Idx → BitVec 1) (h : s.ReducesTo axes t) (hu : 0 < u.numel)
    (hinit : init (Shape.Idx.first hu) = 1#1) (hx : ∀ i, x i = 1#1) (j : t.Idx) :
    Host.reduce IntOp.andi x init h hu j = 1#1 := by
  rw [Host.reduce_eq_foldl]
  exact foldl_andi_of_all_one x _ _ hinit (fun n _ => hx n)

/-! ## A row number wrapped once

`jnp` indexing adds the extent to a negative row number before it gathers. For a signed word in `[-n, n)`
the wrapped word is in `[0, n - 1]`: the range test a filling `take` makes on it passes. -/

/-- Words in `[-n, n)` wrap into `[0, n - 1]`; `lo`, `hi`, `m` are the printed constants `-n`, `n`, `n - 1`. -/
theorem wrap_in_range (n : Int) (hn : 0 < n ∧ n < 2 ^ 30) (s lo hi m : BitVec 32)
    (hlo : lo.toInt = -n) (hhi : hi.toInt = n) (hm : m.toInt = n - 1)
    (hge : IntOp.cmpi .sge s lo = 1#1) (hlt : IntOp.cmpi .slt s hi = 1#1) :
    IntOp.cmpi .sge (Scalar.select (IntOp.cmpi .slt s 0#32) (IntOp.addi s hi) s) 0#32 = 1#1
      ∧ IntOp.cmpi .sle (Scalar.select (IntOp.cmpi .slt s 0#32) (IntOp.addi s hi) s) m = 1#1 := by
  rw [IntOp.cmpi_sge, hlo] at hge
  rw [IntOp.cmpi_slt, hhi] at hlt
  have h0 : (0#32 : BitVec 32).toInt = 0 := by decide
  by_cases hneg : s.toInt < 0
  · have hc : IntOp.cmpi .slt s 0#32 = 1#1 := IntOp.cmpi_slt.mpr (by rw [h0]; exact hneg)
    have hsum : (IntOp.addi s hi).toInt = s.toInt + n := by
      rw [IntOp.addi, BitVec.toInt_add, hhi]
      exact Int.bmod_eq_of_le (by omega) (by omega)
    rw [hc, show Scalar.select 1#1 (IntOp.addi s hi) s = IntOp.addi s hi from if_pos rfl,
      IntOp.cmpi_sge, IntOp.cmpi_sle, h0, hm, hsum]
    omega
  · have hc : ¬IntOp.cmpi .slt s 0#32 = 1#1 := fun h => hneg (by have := IntOp.cmpi_slt.mp h; rwa [h0] at this)
    rw [show Scalar.select (IntOp.cmpi .slt s 0#32) (IntOp.addi s hi) s = s from if_neg hc,
      IntOp.cmpi_sge, IntOp.cmpi_sle, h0, hm]
    omega

end Idealize.ShloMosaic.RowGather

end
-- ==== Proof.EdgeValue.lean ====
/-
  The rows the kernel takes, under the range of the source row numbers.

  When every source row number is in `[-50000, 50000)`, its wrapped form is in `[0, 49999]`, so the range
  test of the filling `take` passes for every edge and no NaN pattern is selected: the taken row of edge `e`
  is row `rowOf e` of `y`, the row the gather reads (the wrapped number clamped into the array, which here
  changes nothing, and which the argument does not need to know).
-/
import proofs.«414135_j44427141710055_3_alg».proof.Proof.EdgeTail
import proofs.«414135_j44427141710055_3_alg».proof.Proof.LibRowGather
import Idealize.ShloMosaic.Lib.Pipeline.Value
import Idealize.ShloMosaic.Lib.ValueIdx

set_option maxRecDepth 16384

noncomputable section

namespace Cert.KernelIdeal.EdgeTail

open Cert.KernelIdeal Cert.KernelIdeal.Gen Idealize.ShloMosaic Idealize.ShloMosaic.ValueIdx
open Idealize.ShloMosaic.RowGather

/-- The wrapped row number of edge `i 0`, from the source row number. -/
theorem wrapped_at (src : IVec S800000 32) (i : S800000x1.Idx) :
    wrapped src i = Scalar.select (IntOp.cmpi .slt (src (ix1 (i 0))) 0#32)
      (IntOp.addi (src (ix1 (i 0))) 50000#32) (src (ix1 (i 0))) := by
  unfold wrapped
  rw [broadcastInDim_apply _ bcast_S800000_S800000x1_0 _ i (ix1 (i 0)) (fun a => match a with
    | ⟨0, _⟩ => by show (i 0).val = if (800000 : Nat) = 1 then 0 else (i 0).val; rw [if_neg (by decide)])]
  rfl

/-- Under the range of the source row numbers the range test passes at every edge. -/
theorem inRange_one (src : IVec S800000 32)
    (hsrc : ∀ e : S800000.Idx, IntOp.cmpi .sge (src e) 4294917296#32 = 1#1 ∧ IntOp.cmpi .slt (src e) 50000#32 = 1#1)
    (e : S800000.Idx) : inRange src e = 1#1 := by
  unfold inRange inRangeOf
  refine reduce_andi_of_all_one _ _ _ _ rfl (fun i => ?_) e
  show IntOp.andi (IntOp.cmpi .sge (wrapped src i) 0#32) (IntOp.cmpi .sle (wrapped src i) 49999#32) = 1#1
  obtain ⟨hge, hlt⟩ := hsrc (ix1 (i 0))
  rw [wrapped_at]
  exact IntOp.andi_eq_one.2 (wrap_in_range 50000 ⟨by norm_num, by norm_num⟩ (src (ix1 (i 0)))
    4294917296#32 50000#32 49999#32 (by decide) (by decide) (by decide) hge hlt)

/-- The taken row of edge `e` at feature `f`: `y` at the row the gather reads. -/
theorem taken_at (y : FVec Ideal S50000x64 .f32) (src : IVec S800000 32)
    (hsrc : ∀ e : S800000.Idx, IntOp.cmpi .sge (src e) 4294917296#32 = 1#1 ∧ IntOp.cmpi .slt (src e) 50000#32 = 1#1)
    (e : Fin 800000) (f : Fin 64) :
    taken y src (ix2 e f) = y (ix2 (rowOf (N := 50000) (by decide) (wrapped src) e) f) := by
  unfold taken takenOf
  have hm : broadcastInDim S800000x64 ![0] bcast_S800000_S800000x64_0 (inRange src) (ix2 e f) = 1#1 := by
    rw [broadcastInDim_apply _ bcast_S800000_S800000x64_0 _ (ix2 e f) (ix1 e) (fun a => match a with
      | ⟨0, _⟩ => by show e.val = if (800000 : Nat) = 1 then 0 else e.val; rw [if_neg (by decide)])]
    exact inRange_one src hsrc (ix1 e)
  rw [select_apply, hm, select_one]
  exact gather_rows_apply (by decide) _ y (wrapped src) e f

end Cert.KernelIdeal.EdgeTail

end
-- ==== Proof.SrcRange.lean ====
/-
  The precondition, read back at an edge.

  The precondition's last conjunct is `all (src >= -50000 and src < 50000)` over the source row of
  `edge_index`: the row numbers for which the reference's `x[src]` reads inside `x` (a negative one counts
  from the end). Printed, it is a reduce by `and` of the two comparisons' conjunction, conjoined with the
  finiteness tests; when the whole is 1 every edge's two comparisons are 1.
-/
import proofs.«414135_j44427141710055_3_alg».proof.Pre_finite_inputs
import proofs.«414135_j44427141710055_3_alg».proof.Proof.Gen.Pre_finite_inputs
import Idealize.ShloMosaic.Lib.ReduceAll
import Idealize.ShloMosaic.Lib.ValueIdx

noncomputable section

namespace Cert.SrcRange

open Idealize.ShloMosaic Idealize.ShloMosaic.ValueIdx Cert.Pre_finite_inputs
open Cert.Pre_finite_inputs.Facts

variable {F : FTy → Type} [FloatOps F]

/-- Row 0 of `edge_index` as a flat array: the source node of every edge. -/
def srcOf (a1 : IVec S2x800000 32) : IVec S800000 32 :=
  shapeCast S800000 (extractStridedSlice S1x800000 ![0, 0] a1 slices_S2x800000_S1x800000_0_0) shapeCasts_S1x800000_S800000

instance : Subsingleton S_.Idx := ⟨fun a b => funext fun d => d.elim0⟩

/-- Under the precondition every source row number is in `[-50000, 50000)`, read signed. -/
theorem src_in_range (a0 : FVec F S50000x64 .f32) (a1 : IVec S2x800000 32) (a2 : FVec F S64x64 .f32) (a3 : FVec F S64 .f32)
    (h : fn (F := F) a0 a1 a2 a3 = fun _ => 1#1) (e : S800000.Idx) :
    IntOp.cmpi .sge (srcOf a1 e) 4294917296#32 = 1#1 ∧ IntOp.cmpi .slt (srcOf a1 e) 50000#32 = 1#1 := by
  have h0 := congrFun h ix0
  dsimp only [fn, fn_part1] at h0
  obtain ⟨-, h2⟩ := IntOp.andi_eq_one.1 h0
  have h3 := Host.reduce_andi_all _ _ _ _ _ h2 e
  obtain ⟨hge, hlt⟩ := IntOp.andi_eq_one.1 h3
  exact ⟨hge, hlt⟩

end Cert.SrcRange

end
-- ==== Proof.Messages.lean ====
/-
  The two programs' per-edge messages are one array.

  The reference gathers row `src[e]` of `x` (wrapped once when negative; the gather clamps it into `x`), and
  then applies `relu (· w + b)` to the gathered row: its message for edge `e`, feature `f` is
    max (∑ k, x[rowOf e, k] * w[k, f] + b[f]) 0.
  The kernel applies `relu (· w + b)` to every row of `x` first and takes row `src[e]` of the result with
  the same wrapping and the same gather, so under the range of `src` (where its filling `take` selects no NaN
  pattern) its message is `nodeMlp x w b (rowOf e, f)`: the same sum, the same row. A function applied row by
  row commutes with a gather of rows; no law of the extended reals beyond that is used, so the precondition's
  finiteness conjuncts are not.
  Both programs then add the messages into a zero array at the rows `dst[e]` by the same scatter.
-/
import proofs.«414135_j44427141710055_3_alg».proof.Proof.EdgeValue
import proofs.«414135_j44427141710055_3_alg».proof.Proof.SrcRange
import proofs.«414135_j44427141710055_3_alg».proof.Proof.Gen.ReferenceIdeal.Read
import Idealize.ShloMosaic.Lib.Pipeline.Value
import Idealize.ShloMosaic.Lib.ValueIdx

set_option maxRecDepth 16384

noncomputable section

namespace Cert.Messages

open Idealize.ShloMosaic Idealize.ShloMosaic.ValueIdx Idealize.ShloMosaic.RowGather
open Cert.ReferenceIdeal (S50000x64 S2x800000 S64x64 S64 S800000x64 S800000x1 S800000)

/-! ## The reference's message at an index -/

theorem lidx_at (e : Fin 800000) (f k : Fin 64) : Cert.ReferenceIdeal.Read.lidx_main_v11 (ix2 e f) k = ix2 e k :=
  funext fun a => Fin.ext (by
    match a with
    | ⟨0, _⟩ => rfl
    | ⟨1, _⟩ => rfl)
theorem ridx_at (e : Fin 800000) (f k : Fin 64) : Cert.ReferenceIdeal.Read.ridx_main_v11 (ix2 e f) k = ix2 k f :=
  funext fun a => Fin.ext (by
    match a with
    | ⟨0, _⟩ => rfl
    | ⟨1, _⟩ => rfl)
theorem bias_idx_at (e : Fin 800000) (f : Fin 64) :
    Cert.ReferenceIdeal.Read.idx_main_v12 (Cert.ReferenceIdeal.Read.idx_main_v13 (ix2 e f)) = ix1 f :=
  funext fun a => Fin.ext (by
    match a with
    | ⟨0, _⟩ => rfl)

/-- The gathered row of `x` for edge `e`, column `k`. -/
theorem ref_gather_at (x0 : (⟨S50000x64, .f32⟩ : BufTy).Contents (Elt Ideal)) (x1 : (⟨S2x800000, .i32⟩ : BufTy).Contents (Elt Ideal))
    (e : Fin 800000) (k : Fin 64) :
    Cert.ReferenceIdeal.Read.val_main_v10 (F := Ideal) x0 x1 (ix2 e k)
      = x0 (ix2 (rowOf (N := 50000) (by decide) (Cert.ReferenceIdeal.Read.val_main_v9 (F := Ideal) x1) e) k) := by
  unfold Cert.ReferenceIdeal.Read.val_main_v10
  exact gather_rows_apply (by decide) _ x0 (Cert.ReferenceIdeal.Read.val_main_v9 (F := Ideal) x1) e k

/-- The reference's message for edge `e`, feature `f`. -/
theorem ref_message_at (x0 : (⟨S50000x64, .f32⟩ : BufTy).Contents (Elt Ideal)) (x1 : (⟨S2x800000, .i32⟩ : BufTy).Contents (Elt Ideal))
    (x2 : (⟨S64x64, .f32⟩ : BufTy).Contents (Elt Ideal)) (x3 : (⟨S64, .f32⟩ : BufTy).Contents (Elt Ideal))
    (e : Fin 800000) (f : Fin 64) :
    Cert.ReferenceIdeal.Read.val_main_v15 (F := Ideal) x0 x1 x2 x3 (ix2 e f)
      = max ((∑ k : Fin 64, x0 (ix2 (rowOf (N := 50000) (by decide) (Cert.ReferenceIdeal.Read.val_main_v9 (F := Ideal) x1) e) k) * x2 (ix2 k f))
          + x3 (ix1 f)) (Ideal.ofBits .f32 0x00000000#32) := by
  rw [Cert.ReferenceIdeal.Read.val_main_v15_apply, Cert.ReferenceIdeal.Read.val_main_v14_apply, Cert.ReferenceIdeal.Read.val_main_v11_apply, Cert.ReferenceIdeal.Read.val_main_v13_apply,
    Cert.ReferenceIdeal.Read.val_main_v12_apply, Cert.ReferenceIdeal.Read.val_main_call0_v0_apply, Cert.ReferenceIdeal.Read.val_main_call0_cst_apply, bias_idx_at]
  show max ((∑ k : Fin 64, Cert.ReferenceIdeal.Read.val_main_v10 (F := Ideal) x0 x1 (Cert.ReferenceIdeal.Read.lidx_main_v11 (ix2 e f) k)
      * x2 (Cert.ReferenceIdeal.Read.ridx_main_v11 (ix2 e f) k)) + x3 (ix1 f)) (Ideal.ofBits .f32 0x00000000#32) = _
  congr 2
  exact Finset.sum_congr rfl fun k _ => by rw [lidx_at, ridx_at, ref_gather_at]

/-! ## The kernel's message is the reference's -/

/-- The kernel's bias row — the bias laid out as a 1 x 64 array — at column `f`. -/
theorem bias_row_at (b : (⟨Cert.KernelIdeal.S64, .f32⟩ : BufTy).Contents (Elt Ideal)) (f : Fin 64) :
    shapeCast Cert.KernelIdeal.S1x64 b Cert.KernelIdeal.Gen.shapeCasts_S64_S1x64 (ix2 (0 : Fin 1) f) = b (ix1 f) :=
  shapeCast_apply b Cert.KernelIdeal.Gen.shapeCasts_S64_S1x64 (ix2 (0 : Fin 1) f) (ix1 f)
    (by rewrite [Shape.rowMajor_val_one, Shape.rowMajor_val_two]; show f.val = 0 * 64 + f.val; omega)

/-- The source row numbers as the kernel's program cuts them out of `edge_index`. -/
abbrev srcK (a1 : IVec Cert.KernelIdeal.S2x800000 32) : IVec Cert.KernelIdeal.S800000 32 :=
  shapeCast Cert.KernelIdeal.S800000 (extractStridedSlice Cert.KernelIdeal.S1x800000 ![0, 0] a1 Cert.KernelIdeal.Gen.slices_S2x800000_S1x800000_0_0)
    Cert.KernelIdeal.Gen.shapeCasts_S1x800000_S800000

/-- Both programs hand their gather the same column of wrapped row numbers. -/
theorem wrapped_eq (a1 : IVec Cert.KernelIdeal.S2x800000 32) :
    Cert.KernelIdeal.EdgeTail.wrapped (srcK a1) = Cert.ReferenceIdeal.Read.val_main_v9 (F := Ideal) a1 := rfl

/-- Under the range of the source row numbers, the rows the kernel takes from `relu (x w + b)` are the
    reference's messages `relu (x[src] w + b)`. -/
theorem messages_eq (x0 : (⟨S50000x64, .f32⟩ : BufTy).Contents (Elt Ideal)) (a1 : (⟨S2x800000, .i32⟩ : BufTy).Contents (Elt Ideal))
    (x2 : (⟨S64x64, .f32⟩ : BufTy).Contents (Elt Ideal)) (x3 : (⟨S64, .f32⟩ : BufTy).Contents (Elt Ideal))
    (hsrc : ∀ e : Cert.KernelIdeal.S800000.Idx, IntOp.cmpi .sge (srcK a1 e) 4294917296#32 = 1#1 ∧ IntOp.cmpi .slt (srcK a1 e) 50000#32 = 1#1) :
    Cert.KernelIdeal.EdgeTail.taken (Cert.KernelIdeal.NodeArray.nodeMlp x0 (fun i => x2 i) (shapeCast Cert.KernelIdeal.S1x64 x3 Cert.KernelIdeal.Gen.shapeCasts_S64_S1x64)) (srcK a1)
      = Cert.ReferenceIdeal.Read.val_main_v15 (F := Ideal) x0 a1 x2 x3 := by
  funext j
  obtain ⟨e, f, rfl⟩ : ∃ (e : Fin 800000) (f : Fin 64), j = ix2 e f := ⟨j 0, j 1, eq_ix2 j⟩
  rw [Cert.KernelIdeal.EdgeTail.taken_at _ _ hsrc e f, ref_message_at, Cert.KernelIdeal.NodeArray.nodeMlp_at, bias_row_at, wrapped_eq]

attribute [local irreducible] Host.scatterAdd in
/-- The kernel program's result and the reference's are one array: the same messages added at the same rows. -/
theorem result_eq (x0 : (⟨S50000x64, .f32⟩ : BufTy).Contents (Elt Ideal)) (a1 : (⟨S2x800000, .i32⟩ : BufTy).Contents (Elt Ideal))
    (x2 : (⟨S64x64, .f32⟩ : BufTy).Contents (Elt Ideal)) (x3 : (⟨S64, .f32⟩ : BufTy).Contents (Elt Ideal))
    (hsrc : ∀ e : Cert.KernelIdeal.S800000.Idx, IntOp.cmpi .sge (srcK a1 e) 4294917296#32 = 1#1 ∧ IntOp.cmpi .slt (srcK a1 e) 50000#32 = 1#1) :
    Cert.KernelIdeal.EdgeTail.edgeSum (Cert.KernelIdeal.NodeArray.nodeMlp x0 (fun i => x2 i) (shapeCast Cert.KernelIdeal.S1x64 x3 Cert.KernelIdeal.Gen.shapeCasts_S64_S1x64))
        (srcK a1)
        (shapeCast Cert.KernelIdeal.S800000 (extractStridedSlice Cert.KernelIdeal.S1x800000 ![1, 0] a1 Cert.KernelIdeal.Gen.slices_S2x800000_S1x800000_1_0)
          Cert.KernelIdeal.Gen.shapeCasts_S1x800000_S800000)
      = Cert.ReferenceIdeal.Read.val_main_v18 (F := Ideal) x0 a1 x2 x3 := by
  unfold Cert.KernelIdeal.EdgeTail.edgeSum Cert.KernelIdeal.EdgeTail.edgeSumOf Cert.ReferenceIdeal.Read.val_main_v18
  rw [messages_eq x0 a1 x2 x3 hsrc]
  -- the same scatter, into the same zeros, at the same target rows
  have hdims : Cert.KernelIdeal.scatter_S50000x64_S800000x1_S800000x64_1_0_0_1 = Cert.ReferenceIdeal.scatter_S50000x64_S800000x1_S800000x64_1_0_0_1 := rfl
  have hzero : broadcastInDim Cert.KernelIdeal.S50000x64 ![] Cert.KernelIdeal.Gen.bcast_S_S50000x64 (constant (F := Ideal) Cert.KernelIdeal.S_ .f32 0x00000000#32)
      = Cert.ReferenceIdeal.Read.val_main_v16 (F := Ideal) := rfl
  have hdst : broadcastInDim Cert.KernelIdeal.S800000x1 ![0] Cert.KernelIdeal.Gen.bcast_S800000_S800000x1_0
        (shapeCast Cert.KernelIdeal.S800000 (extractStridedSlice Cert.KernelIdeal.S1x800000 ![1, 0] a1 Cert.KernelIdeal.Gen.slices_S2x800000_S1x800000_1_0)
          Cert.KernelIdeal.Gen.shapeCasts_S1x800000_S800000)
      = Cert.ReferenceIdeal.Read.val_main_v17 (F := Ideal) a1 := rfl
  rw [hdims, hzero, hdst]

end Cert.Messages

end
-- ==== Proof.lean ====
/-
  Message passing with a one-layer MLP message: for every target node `i`,
    out[i] = ∑ over edges e with dst[e] = i of relu (x[src[e]] · W + b).

  The reference gathers the source rows of `x` per edge and applies `relu (· W + b)` to the 800000 gathered
  rows. The kernel applies `relu (· W + b)` to the 50000 rows of `x` once, in a Pallas kernel over 25 blocks of
  2000 rows (its bf16 narrowing of `x` and `W` is the identity on extended reals), and gathers rows of the
  result. A row-wise function commutes with a gather of rows, so the per-edge messages agree, and both
  programs add them into a zero array at the target rows with one and the same scatter.

  The precondition carries, beside the finiteness of the float inputs, the range of the source row numbers,
  `-50000 ≤ src < 50000`: the row numbers at which `x[src]` reads inside `x` (a negative one counts from the
  end). Outside it the kernel's `take` fills the message with the NaN pattern where the reference's gather
  clamps the row number, and the two results differ; inside it the fill is never selected. The finiteness
  conjuncts are not used: no law of the extended reals beyond the commutation above is.

  The frames are the generated ones (the reference's is its generated run with the result dropped); the kernel
  program was printed with no rewrite, so there is nothing to preserve.
-/
import proofs.«414135_j44427141710055_3_alg».proof.Defs
import proofs.«414135_j44427141710055_3_alg».proof.Proof.Gen.Kernel
import proofs.«414135_j44427141710055_3_alg».proof.Proof.Gen.Kernel.Skeleton
import proofs.«414135_j44427141710055_3_alg».proof.Proof.Gen.Kernel.Launch
import proofs.«414135_j44427141710055_3_alg».proof.Proof.Gen.Kernel.Points
import proofs.«414135_j44427141710055_3_alg».proof.Proof.Gen.Kernel.Frame
import proofs.«414135_j44427141710055_3_alg».proof.Proof.Gen.KernelIdeal
import proofs.«414135_j44427141710055_3_alg».proof.Proof.Gen.KernelIdeal.Skeleton
import proofs.«414135_j44427141710055_3_alg».proof.Proof.Gen.KernelIdeal.Launch
import proofs.«414135_j44427141710055_3_alg».proof.Proof.Gen.KernelIdeal.Points
import proofs.«414135_j44427141710055_3_alg».proof.Proof.Gen.KernelIdeal.Frame
import proofs.«414135_j44427141710055_3_alg».proof.Proof.Gen.ReferenceIdeal
import proofs.«414135_j44427141710055_3_alg».proof.Proof.Gen.Pre_finite_inputs
import proofs.«414135_j44427141710055_3_alg».proof.Proof.Gen.ReferenceIdeal.Run
import proofs.«414135_j44427141710055_3_alg».proof.Proof.Gen.ReferenceIdeal.Read
import proofs.«414135_j44427141710055_3_alg».proof.Proof.Messages
import Idealize.ShloMosaic.Adequacy
import Idealize.ShloMosaic.Init

noncomputable section

namespace Cert.Proof

open Idealize.ShloMosaic Idealize.ShloMosaic.TcCoe Idealize.SL.Sem

/-! ## The frames -/

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-! ## The two results -/

/-- Under the precondition the kernel program's result buffer ends at the reference's function of the
    arguments: the node values gathered per edge are the reference's messages, added at the same rows. -/
theorem kernel_value (m : (ℓ : Loc Cert.KernelIdeal.nD Cert.KernelIdeal.τ Cert.KernelIdeal.sig) → Buf (Elt Ideal) ℓ) (hpre : Cert.Pre_KernelIdeal m)
    (c : Dev Cert.KernelIdeal.nD) :
    Pipeline.afterTail₀ Cert.KernelIdeal.cfgs (Cert.KernelIdeal.Gen.dats m) 0 (Cert.KernelIdeal.Gen.V0 m) [Cert.KernelIdeal.Gen.hostOps1, Cert.KernelIdeal.Gen.hostOps1_1] c Cert.KernelIdeal.main_v10
      = Cert.ReferenceIdeal.Read.val_main_v18 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  rw [Cert.KernelIdeal.EdgeTail.result, Cert.KernelIdeal.Gen.V_main_arg0, Cert.KernelIdeal.EdgeTail.V_w, Cert.KernelIdeal.EdgeTail.V_b, Cert.KernelIdeal.EdgeTail.V_src,
    Cert.KernelIdeal.EdgeTail.V_dst]
  exact Cert.Messages.result_eq _ _ _ _ (fun e => Cert.SrcRange.src_in_range _ _ _ _ (hpre c) e)

theorem algebraic : Cert.algebraic_KernelIdeal_ReferenceIdeal := by
  intro m ρ m' ρ' hpre hagree
  refine ⟨fun c => Cert.ReferenceIdeal.Read.val_main_v18 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    ?_, ?_⟩
  · -- the kernel program: the generated frame run, its result buffer read through the host tail
    refine (θ_run Cert.KernelIdeal.defs _ _).mono (fun r h c => ?_) (Cert.KernelIdeal.Gen.run_main m ρ)
    exact ⟨((h c).2 Cert.KernelIdeal.main_v10 (Pipeline.mem_restRefs_of Cert.KernelIdeal.main_v10 (by decide) (by decide))).trans
        (kernel_value m hpre c),
      ((h c).1 0).trans (((Cert.KernelIdeal.Gen.dats m 0 c).arrAt_in 0 rfl _).trans
        ((Cert.KernelIdeal.Gen.A_eq m c 0).trans (Cert.KernelIdeal.Gen.V_main_arg0 m c))),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c),
      ((h c).2 Cert.KernelIdeal.main_arg2 (Pipeline.mem_restRefs_of Cert.KernelIdeal.main_arg2 (by decide) (by decide))).trans
        (Cert.KernelIdeal.Gen.W_main_arg2 m (Cert.KernelIdeal.Gen.dats m) c),
      ((h c).2 Cert.KernelIdeal.main_arg3 (Pipeline.mem_restRefs_of Cert.KernelIdeal.main_arg3 (by decide) (by decide))).trans
        (Cert.KernelIdeal.Gen.W_main_arg3 m (Cert.KernelIdeal.Gen.dats m) c)⟩
  · -- the reference: its generated run, the result's term named by the generated stage
    refine (θ_run Cert.ReferenceIdeal.defs _ _).mono (fun _ h c => ⟨?_, (h c).2⟩) (Cert.ReferenceIdeal.Value.run (F := Ideal) m' ρ')
    refine (h c).1.trans ((Cert.ReferenceIdeal.Read.val_main_v18_eq _ _ _ _).trans ?_)
    rw [(hagree c).1, (hagree c).2.1, (hagree c).2.2.1, (hagree c).2.2.2]

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
